-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x1024 : Shape := ⟨2, ![4096, 1024]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x4096 .f32) (main_arg1 : FVec F S4096x1024 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S4096x4096 : Shape := ⟨2, ![4096, 4096]⟩
abbrev S4096x1024 : Shape := ⟨2, ![4096, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩

abbrev nBuf : Space → Nat
  | .hbm => 3
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v33 : BitVec 1 := Scalar.cmpi .eq arg1 c15_i32
  let v34 : BitVec 32 := Scalar.extui v33
  let c0_i32_15 : BitVec 32 := 0#32
  let v35 : BitVec 1 := Scalar.cmpi .ne v34 c0_i32_15
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  transposes_S256x1_p1_0_S1x256 : S256x1.Transposes [1, 0] S1x256
  bitsLt_bf16_f32 : FTy.bits .bf16 < FTy.bits .f32
  broadcasts_S256x1_S256x256 : S256x1.Broadcasts S256x256
  broadcasts_S1x256_S256x256 : S1x256.Broadcasts S256x256
  dot_S256x4096_S256x4096_S256x256_1_1_0_0_n_n_wf : DotDims.WF S256x4096 S256x4096 S256x256 [1] [1] [0] [0] [] []
  dot_S256x256_S256x1024_S256x1024_1_0_0_1_n_n_wf : DotDims.WF S256x256 S256x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S4096x1024.size a
  hwx0_3 : ∀ i : grid0.Coords, EltTy.bits .f32 = 32 ∨ (Rect.block (s := S4096x1024) S256x1024.size (cc0_transform_3 i) (hinb0_3 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x4096_S4096x4096_1_0 : S4096x4096.Transposes [1, 0] S4096x4096
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.KBData.lean ====
/-
  The proof data of the one pallas_call, for any float instance.

  The grid is 16 × 16, point t = 16·i + j. At point t the body reads three input blocks: rows 256·i … of x
  (window 0), rows 256·j … of x (window 1, the same array), rows 256·j … of W (window 2). It keeps a running
  [256, 1024] accumulator in its scratch buffer: reset to zero when j = 0, then increased at every point by the
  block's contribution; at j = 15 the accumulator is stored into the output block, which is written back to rows
  256·i … of the result. `accP` is that accumulator after point n, over the skeleton's two payloads.
-/
import proofs.«148815_j86036784874092_1_alg».proof.Proof.Gen.Kernel.Launch
import proofs.«148815_j86036784874092_1_alg».proof.Proof.Gen.Kernel.Skeleton
import proofs.«148815_j86036784874092_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: @main has no operation before it, so the launch memory. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The scratch accumulator, as a whole memref. -/
abbrev scM : Memref sig .tc .vmem S256x1024 .f32 := Memref.whole cc0_scratch0

/-- The accumulator after the body at point `n`: the point's contribution added to zero at the first point of a
    row of the grid (n ≡ 0 mod 16), and to what the point before left otherwise. -/
def accP (c : Dev nD) : (n : ℕ) → n < cfg0.N → Vec F S256x1024 .f32
  | 0, hn => k0_pay2 (iblk m c 0 ⟨0, hn⟩) (iblk m c 1 ⟨0, hn⟩) (iblk m c 2 ⟨0, hn⟩) k0_pay1
  | n + 1, hn => k0_pay2 (iblk m c 0 ⟨n + 1, hn⟩) (iblk m c 1 ⟨n + 1, hn⟩) (iblk m c 2 ⟨n + 1, hn⟩)
      (if (n + 1) % 16 = 0 then k0_pay1 else accP c n (Nat.lt_of_succ_lt hn))

theorem accP_reset (c : Dev nD) (t : Fin cfg0.N) (h0 : t.val % 16 = 0) :
    accP m c t.val t.isLt = k0_pay2 (iblk m c 0 t) (iblk m c 1 t) (iblk m c 2 t) k0_pay1 := by
  obtain ⟨n, hn⟩ := t
  cases n with
  | zero => rfl
  | succ n => exact (by rw [accP]; simp only [if_pos h0])

theorem accP_step (c : Dev nD) (t : Fin cfg0.N) (h0 : ¬t.val % 16 = 0) :
    accP m c t.val t.isLt = k0_pay2 (iblk m c 0 t) (iblk m c 1 t) (iblk m c 2 t)
      (accP m c (t.val - 1) (Nat.lt_of_le_of_lt (Nat.sub_le _ _) t.isLt)) := by
  obtain ⟨n, hn⟩ := t
  cases n with
  | zero => exact absurd (Nat.zero_mod _) h0
  | succ n => exact (by rw [accP]; simp only [if_neg h0]; rfl)

/-- The region invariant before position `n`: before the first point the scratch holds anything; afterwards it
    holds the accumulator the point before left. The generator register rides along at some state. -/
def PhiS (c : Dev nD) : (n : ℕ) → n ≤ cfg0.N → sProp 𝕄
  | 0, _ => Pipeline.ΦA spec0 c
  | n + 1, hn => iprop(iprop(owns (c : Thread nD τ) scM fullShare (accP m c n hn)) ∗ (∃ r, prngReg c r))

/-- The proof data: the arrays as the region finds them; after the body each input's buffer still holds its block and
    the output's the accumulator; the two windows on `x` each hold half of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accP m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = accP m c t.val t.isLt := by dsimp only [dats]

end Cert.Kernel.Hand

end
-- ==== Proof.KBRuns.lean ====
/-
  The kernel body run once per control case, for any float instance.

  The body has two conditionals on the grid's second coordinate j: "j = 0" (zero the accumulator first) and "j = 15"
  (store the accumulator to the output block last). On the 16 × 16 grid three combinations occur: A (j = 0),
  B (0 < j < 15), C (j = 15). In each the body loads the three input blocks, leaves them in place, and leaves in the
  scratch buffer the pieces its stores wrote; in case C it also covers the output block. Each run is a triple over
  whole staging memrefs; the pieces are found by the symbolic run.
-/
import proofs.«148815_j86036784874092_1_alg».proof.Proof.KBData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions, in closed form over the grid -/

/-- "j = 0", as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "j = 15", as the body computes it. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from j = 15 the body stores nothing into the output block, and the block is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the pipeline calls the body with -/

abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .f32 := win0_3.stage (cfg0.slots t 3)
abbrev hs0_3 (t : Fin cfg0.N) : (ms0_3 t).IsWhole := hstage0_3 ((cfg0.slots t 3).cast nbuf0_3)

/-- The scratch as a view, and one staging buffer of the output window as a view: contents are stated through them. -/
abbrev VS : View sig .tc .vmem S256x1024 .f32 := (scM : Memref sig .tc .vmem S256x1024 .f32).view
abbrev VO : View sig .tc .vmem S256x1024 .f32 := (Memref.whole cc0_stg3_0 : Memref sig .tc .vmem S256x1024 .f32).view

/-- The class invariant with the scratch as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The three runs -/

set_option maxHeartbeats 1000000 in
/-- Case B (0 < j < 15): the scratch is handed in at contents `xs`; the output block is untouched. -/
noncomputable def kernelRun_B (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (hc0 : ¬cond0_0 i) (hc1 : ¬cond0_1 i)
    (x0 x1 : Vec F S256x4096 .f32) (x2 xs : Vec F S256x1024 .f32) :
    { LS : List (View.Piece (Elt F) S256x1024 .f32) //
      ∀ (xi3 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__rbf_matmul_kernel i arg2 harg2 arg3 harg3 arg4 harg4 arg5 harg5 arg6 harg6) K } := by
  refine ⟨?_, fun xi3 E K => ?run⟩
  case run =>
    simp only [cc0__rbf_matmul_kernel_eq_skeleton]; unfold cc0__rbf_matmul_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- Case A (j = 0): the scratch is handed in at anything (it is zeroed first); the output block is untouched. -/
noncomputable def kernelRun_A (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (hc0 : cond0_0 i) (hc1 : ¬cond0_1 i)
    (x0 x1 : Vec F S256x4096 .f32) (x2 : Vec F S256x1024 .f32) :
    { LS : List (View.Piece (Elt F) S256x1024 .f32) //
      ∀ (xi3 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__rbf_matmul_kernel i arg2 harg2 arg3 harg3 arg4 harg4 arg5 harg5 arg6 harg6) K } := by
  refine ⟨?_, fun xi3 E K => ?run⟩
  case run =>
    simp only [cc0__rbf_matmul_kernel_eq_skeleton]; unfold cc0__rbf_matmul_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- Case C (j = 15): the scratch is handed in at contents `xs`; the output block, handed in at anything, is covered. -/
noncomputable def kernelRun_C (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (hc0 : ¬cond0_0 i) (hc1 : cond0_1 i)
    (x0 x1 : Vec F S256x4096 .f32) (x2 xs : Vec F S256x1024 .f32) :
    Σ' (LO : List (View.Piece (Elt F) S256x1024 .f32)), { LS : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc0__rbf_matmul_kernel i arg2 harg2 arg3 harg3 arg4 harg4 arg5 harg5 arg6 harg6) K } := by
  refine ⟨?_, ?_, fun E K => ?run⟩
  case run =>
    simp only [cc0__rbf_matmul_kernel_eq_skeleton]; unfold cc0__rbf_matmul_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

end Cert.Kernel.Hand

end
-- ==== Proof.KBPieces.lean ====
/-
  What each case of the body leaves, as values.

  In every case the LAST store into the scratch buffer is a store of the whole block, so the scratch ends at that
  store's payload: the block's contribution added to zero (case A: the zero block just stored is what the body reads
  back) or to what the scratch held (cases B and C). In case C the output block is then covered by one whole store
  of the scratch read back, so it ends at the same value.
-/
import proofs.«148815_j86036784874092_1_alg».proof.Proof.KBRuns
import Idealize.ShloMosaic.Lib.Pipeline.Value
import Idealize.ShloMosaic.Lib.Ring

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-! ## The pieces cover their buffers -/

theorem cover_A (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (hc0 : cond0_0 i) (hc1 : ¬cond0_1 i)
    (x0 x1 : Vec F S256x4096 .f32) (x2 : Vec F S256x1024 .f32) (y : S256x1024.Idx) :
    ∃ pc ∈ (kernelRun_A (F := F) c i arg2 harg2 arg3 harg3 arg4 harg4 arg5 harg5 arg6 harg6 hc0 hc1 x0 x1 x2).1, y ∈ pc.1.set :=
  View.cover_of_tiledL (kernelRun_A (F := F) c i arg2 harg2 arg3 harg3 arg4 harg4 arg5 harg5 arg6 harg6 hc0 hc1 x0 x1 x2).1 S256x1024.size (by sl_kernel_rfl) y

theorem cover_B (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (hc0 : ¬cond0_0 i) (hc1 : ¬cond0_1 i)
    (x0 x1 : Vec F S256x4096 .f32) (x2 xs : Vec F S256x1024 .f32) (y : S256x1024.Idx) :
    ∃ pc ∈ (kernelRun_B (F := F) c i arg2 harg2 arg3 harg3 arg4 harg4 arg5 harg5 arg6 harg6 hc0 hc1 x0 x1 x2 xs).1, y ∈ pc.1.set :=
  View.cover_of_tiledL (kernelRun_B (F := F) c i arg2 harg2 arg3 harg3 arg4 harg4 arg5 harg5 arg6 harg6 hc0 hc1 x0 x1 x2 xs).1 S256x1024.size (by sl_kernel_rfl) y

theorem cover_C_out (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (hc0 : ¬cond0_0 i) (hc1 : cond0_1 i)
    (x0 x1 : Vec F S256x4096 .f32) (x2 xs : Vec F S256x1024 .f32) (y : S256x1024.Idx) :
    ∃ pc ∈ (kernelRun_C (F := F) c i arg2 harg2 arg3 harg3 arg4 harg4 arg5 harg5 arg6 harg6 hc0 hc1 x0 x1 x2 xs).1, y ∈ pc.1.set :=
  View.cover_of_tiledL (kernelRun_C (F := F) c i arg2 harg2 arg3 harg3 arg4 harg4 arg5 harg5 arg6 harg6 hc0 hc1 x0 x1 x2 xs).1 S256x1024.size (by sl_kernel_rfl) y

theorem cover_C (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (hc0 : ¬cond0_0 i) (hc1 : cond0_1 i)
    (x0 x1 : Vec F S256x4096 .f32) (x2 xs : Vec F S256x1024 .f32) (y : S256x1024.Idx) :
    ∃ pc ∈ (kernelRun_C (F := F) c i arg2 harg2 arg3 harg3 arg4 harg4 arg5 harg5 arg6 harg6 hc0 hc1 x0 x1 x2 xs).2.1, y ∈ pc.1.set :=
  View.cover_of_tiledL (kernelRun_C (F := F) c i arg2 harg2 arg3 harg3 arg4 harg4 arg5 harg5 arg6 harg6 hc0 hc1 x0 x1 x2 xs).2.1 S256x1024.size (by sl_kernel_rfl) y

/-! ## What they leave -/

/-- Case A leaves in the scratch the block's contribution added to the zero block. -/
theorem left_A (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (hc0 : cond0_0 i) (hc1 : ¬cond0_1 i)
    (x0 x1 : Vec F S256x4096 .f32) (x2 : Vec F S256x1024 .f32) :
    VS.read (Elt F) (VS.writes (Elt F) VS.junk (kernelRun_A (F := F) c i arg2 harg2 arg3 harg3 arg4 harg4 arg5 harg5 arg6 harg6 hc0 hc1 x0 x1 x2).1) = k0_pay2 x0 x1 x2 k0_pay1 := by
  rw [View.read_writes_eq_canon _ _ _ (cover_A c i arg2 harg2 arg3 harg3 arg4 harg4 arg5 harg5 arg6 harg6 hc0 hc1 x0 x1 x2)]
  unfold kernelRun_A
  dsimp only
  sl_unfold_words
  rw [View.canon_cons_unit_zero (S := S256x1024) hz, View.readCov_unit_zero (S := S256x1024) _ hz]
  simp only [View.readAt_eq_ld, harg2.read_unread, harg3.read_unread, harg4.read_unread, View.ld_unit_zero (S := S256x4096) hz, View.ld_unit_zero (S := S256x1024) hz]

/-- Case B leaves in the scratch the block's contribution added to what it held. -/
theorem left_B (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (hc0 : ¬cond0_0 i) (hc1 : ¬cond0_1 i)
    (x0 x1 : Vec F S256x4096 .f32) (x2 xs : Vec F S256x1024 .f32) :
    VS.read (Elt F) (VS.writes (Elt F) VS.junk (kernelRun_B (F := F) c i arg2 harg2 arg3 harg3 arg4 harg4 arg5 harg5 arg6 harg6 hc0 hc1 x0 x1 x2 xs).1) = k0_pay2 x0 x1 x2 xs := by
  rw [View.read_writes_eq_canon _ _ _ (cover_B c i arg2 harg2 arg3 harg3 arg4 harg4 arg5 harg5 arg6 harg6 hc0 hc1 x0 x1 x2 xs)]
  unfold kernelRun_B
  dsimp only
  sl_unfold_words
  rw [View.canon_unit_zero (S := S256x1024) hz]
  simp only [View.readAt_eq_ld, harg2.read_unread, harg3.read_unread, harg4.read_unread, harg6.read_unread, View.ld_unit_zero (S := S256x4096) hz, View.ld_unit_zero (S := S256x1024) hz]

/-- Case C leaves the same in the scratch, -/
theorem left_C (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (hc0 : ¬cond0_0 i) (hc1 : cond0_1 i)
    (x0 x1 : Vec F S256x4096 .f32) (x2 xs : Vec F S256x1024 .f32) :
    VS.read (Elt F) (VS.writes (Elt F) VS.junk (kernelRun_C (F := F) c i arg2 harg2 arg3 harg3 arg4 harg4 arg5 harg5 arg6 harg6 hc0 hc1 x0 x1 x2 xs).2.1) = k0_pay2 x0 x1 x2 xs := by
  rw [View.read_writes_eq_canon _ _ _ (cover_C c i arg2 harg2 arg3 harg3 arg4 harg4 arg5 harg5 arg6 harg6 hc0 hc1 x0 x1 x2 xs)]
  unfold kernelRun_C
  dsimp only
  sl_unfold_words
  rw [View.canon_unit_zero (S := S256x1024) hz]
  simp only [View.readAt_eq_ld, harg2.read_unread, harg3.read_unread, harg4.read_unread, harg6.read_unread, View.ld_unit_zero (S := S256x4096) hz, View.ld_unit_zero (S := S256x1024) hz]

/-- and in the output block, which it covers with the scratch read back. -/
theorem left_C_out (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (hc0 : ¬cond0_0 i) (hc1 : cond0_1 i)
    (x0 x1 : Vec F S256x4096 .f32) (x2 xs : Vec F S256x1024 .f32) :
    VO.read (Elt F) (VO.writes (Elt F) VO.junk (kernelRun_C (F := F) c i arg2 harg2 arg3 harg3 arg4 harg4 arg5 harg5 arg6 harg6 hc0 hc1 x0 x1 x2 xs).1) = k0_pay2 x0 x1 x2 xs := by
  rw [View.read_writes_eq_canon _ _ _ (cover_C_out c i arg2 harg2 arg3 harg3 arg4 harg4 arg5 harg5 arg6 harg6 hc0 hc1 x0 x1 x2 xs)]
  unfold kernelRun_C
  dsimp only
  sl_unfold_words
  rw [View.canon_unit_zero (S := S256x1024) hz, View.readCov_unit_zero (S := S256x1024) _ hz]
  simp only [View.readAt_eq_ld, harg2.read_unread, harg3.read_unread, harg4.read_unread, harg6.read_unread, View.ld_unit_zero (S := S256x4096) hz, View.ld_unit_zero (S := S256x1024) hz]

end Cert.Kernel.Hand

end
-- ==== Proof.LibSharedLaunch.lean ====
/-
  A general lemma: the frame run of a one-region pipeline program with a TRACKING invariant, for a kernel whose
  INPUT WINDOWS MAY SHARE AN ARRAY (one array handed to the kernel through several input specs).

  The library's tracking frame run asks that the windows' arrays be pairwise distinct buffers; it uses that only to
  deal each array's full share to its one window. Here the layout is taken by its fields (the arrays need not be
  distinct) and the dealing is a hypothesis `hsplit`: the distinct buffers behind the arrays, each whole at the full
  share at the region-entry contents, make the proof data's arrays at entry — for an array read by two input windows,
  each window holding half of its share. The conclusion is the library's frame post: every window's array ends at
  what the proof data compute, every other unscoped buffer as the region found it.
-/
import Idealize.ShloMosaic.Lib.Pipeline.Frame

noncomputable section

namespace Cert.LibSharedLaunch

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The tracking frame run with the layout by its fields and the arrays' shares dealt by `hsplit`. -/
theorem θ_run_frame_track_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, ΦA (cfgs p).spec c ⊢ (dats p c).Φ 0)
    (hout : ∀ c, (dats p c).Φ (Fin.last (cfgs p).N) ⊢ ΦA (cfgs p).spec c) :
    θ_run (Pipeline.defs (fun q => Cfg.toPCfg (Val := Val) (cfgs q)) defs₀) (onTc main) (s₀ m g) (FramePost cfgs dats p V) := by
  classical
  exact Pipeline.θ_run_region_pf (fun q => (cfgs q).toPCfg (Val := Val)) (fun q => (cfgs q).toPCfg_adm) dats () hinj p hw
    (OwnSemFacts.none (cfgs p).spec) (PreFacts.none _) emb₁ defs₀ 𝒱₀ m g main
    hbody hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := V) (hmain := hmain) (hsplit := hsplit) (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfgs p).spec c (V c))
    (hX := fun c => by
      iintro ⟨HU, -, -, -, Hp, -⟩; imodintro
      isplitl [Hp]; · iexists _; iexact Hp
      iexact HU)
    (hin := fun c => (show _ ⊢ ΦA (cfgs p).spec c by
        unfold ΦA; iintro ⟨Hp, -, Hr⟩
        isplitl [Hr] <;> iassumption).trans (hin c))
    (hout := fun c => (hout c).trans (by
        rw [ownSems0_none]; unfold ΦA
        iintro ⟨Hr, Hp⟩
        isplitl [Hp]; · iexact Hp
        isplitr; · iempintro
        iexact Hr))
    (QY := fun c s => ∀ b ∈ restRefsP sig Prefetch.none (cfgs p).spec, s.mem ((c.tc : Thread nD τ).loc b) = V c b)
    (hY := fun c s' => by
      iintro ⟨-, HU, HSI⟩
      unfold unscopedRestP
      imodintro
      iapply (pointsTo_read_all (restRefsP sig Prefetch.none (cfgs p).spec) (fun b => (c.tc : Thread nD τ).loc b) (V c) s')
      isplitl [HU] <;> iassumption)
    (hQ := fun s h c => ⟨(h c).1, rest_of_restP Prefetch.none (cfgs p).spec (fun k => k.elim0) c (V c) s (fun k => k.elim0) (h c).2.1 (h c).2.2⟩)

end Cert.LibSharedLaunch

end
-- ==== Proof.KBBody.lean ====
/-
  The body obligation at every grid point, the arrays' shares at entry, and the run of the whole program.

  At a point t = 16·i + j the pipeline hands the body the three input blocks (each input's staging buffer holds its
  block whether or not it was fetched at this point) and the scratch at what the point before left. By cases on
  j = 0, 0 < j < 15, j = 15 the matching run of the body applies, and the scratch (and at j = 15 the output block) is
  left at the accumulator `accP`. The array x is read through two windows; its full share is split in two halves at
  entry. The launch then gives: every execution terminates, the result array ends at what the write-backs of the
  accumulator at the points j = 15 leave, and x and W end unchanged.
-/
import proofs.«148815_j86036784874092_1_alg».proof.Proof.KBPieces
import proofs.«148815_j86036784874092_1_alg».proof.Proof.LibSharedLaunch

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant, point by point -/

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accP m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accP m c (n - 1) (by omega))) ∗ (∃ r, prngReg c r)) := by
  cases n with
  | zero => exact absurd rfl hz
  | succ n => rfl

theorem PhiS_castSucc (c : Dev nD) (t : Fin cfg0.N) :
    (dats m 0 c).Φ t.castSucc = PhiS m c t.val (Nat.le_of_lt t.isLt) := by
  dsimp only [dats]; simp only [Fin.coe_castSucc]

/-- Whatever the point, the invariant holds the scratch at SOME contents: all a point with j = 0 needs. -/
theorem PhiS_any (c : Dev nD) (n : ℕ) (h : n ≤ cfg0.N) :
    PhiS m c n h ⊢ iprop(iprop((∃ d, owns (c : Thread nD τ) scM fullShare d)) ∗ (∃ r, prngReg c r)) := by
  by_cases hz : n = 0
  · rw [PhiS_zero m c n h hz, PhiA0_eq]
  · rw [PhiS_pos m c n h hz]
    iintro ⟨HS, Hg⟩
    isplitl [HS]
    · iexists _; iexact HS
    iexact Hg

/-! ## Each input's buffer holds its block -/

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [PhiS_castSucc m c t]
  by_cases h0 : t.val % 16 = 0
  · have h1 : ¬t.val % 16 = 15 := by omega
    rw [Dat.leavesExact_idle (dats m 0 c) 3 t (idleAt0_3 t (fun h => h1 ((hcond0_1 t).mp h))) (noFlush0_3 t (fun h => h1 ((hcond0_1 t).mp h)))]
    rw [accP_reset m c t h0]
    by_cases hz : t.val = 0
    · rw [PhiS_zero m c _ _ hz, PhiA0_eq]
      iintro ⟨⟨HS, Hg⟩, Ho, ⟨%d0, H0⟩, ⟨%d1, H1⟩, ⟨%d2, H2⟩, ⟨%d3, H3⟩⟩
      iapply ((kernelRun_A c (grid0.coords t) _ _ _ _ _ _ _ _ _ _ ((hcond0_0 t).mpr h0) (fun h => h1 ((hcond0_1 t).mp h)) (iblk m c 0 t) (iblk m c 1 t) (iblk m c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro
          exact (View.read_writes_of_cover _ _ _ _ _ (cover_A c _ _ _ _ _ _ _ _ _ _ _ _ _ _ _ _)).trans (left_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_pos m c _ _ hz]
      iintro ⟨⟨HS, Hg⟩, Ho, ⟨%d0, H0⟩, ⟨%d1, H1⟩, ⟨%d2, H2⟩, ⟨%d3, H3⟩⟩
      iapply ((kernelRun_A c (grid0.coords t) _ _ _ _ _ _ _ _ _ _ ((hcond0_0 t).mpr h0) (fun h => h1 ((hcond0_1 t).mp h)) (iblk m c 0 t) (iblk m c 1 t) (iblk m c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg]
      · isplitl [HS]
        · unfold owns; iexists _; isplitr
          swap; · iexact HS
          ipureintro
          exact (View.read_writes_of_cover _ _ _ _ _ (cover_A c _ _ _ _ _ _ _ _ _ _ _ _ _ _ _ _)).trans (left_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [PhiS_pos m c _ _ hz, accP_step m c t h0]
    by_cases h1 : t.val % 16 = 15
    · rw [show (dats m 0 c).leavesExact 3 t = owns (c : Thread nD τ) (ms0_3 t) fullShare ((dats m 0 c).after 3 t) from by
        unfold Dat.leavesExact; rw [liveAt0_3 t ((hcond0_1 t).mpr h1)], after0_3, accP_step m c t h0]
      iintro ⟨⟨HS, Hg⟩, Ho, ⟨%d0, H0⟩, ⟨%d1, H1⟩, ⟨%d2, H2⟩, ⟨%d3, H3⟩⟩
      iapply ((kernelRun_C c (grid0.coords t) _ _ _ _ _ _ _ _ _ _ (fun h => h0 ((hcond0_0 t).mp h)) ((hcond0_1 t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro
          exact (View.read_writes_of_cover _ _ _ _ _ (cover_C c _ _ _ _ _ _ _ _ _ _ _ _ _ _ _ _ _)).trans (left_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro
      exact (View.read_writes_of_cover _ _ VO VO.junk _ (cover_C_out c _ _ _ _ _ _ _ _ _ _ _ _ _ _ _ _ _)).trans (left_C_out c _ _ _ _ _ _ _ _ _ _ _ _ _ _ _ _ _)
    · rw [Dat.leavesExact_idle (dats m 0 c) 3 t (idleAt0_3 t (fun h => h1 ((hcond0_1 t).mp h))) (noFlush0_3 t (fun h => h1 ((hcond0_1 t).mp h)))]
      iintro ⟨⟨HS, Hg⟩, Ho, ⟨%d0, H0⟩, ⟨%d1, H1⟩, ⟨%d2, H2⟩, ⟨%d3, H3⟩⟩
      iapply ((kernelRun_B c (grid0.coords t) _ _ _ _ _ _ _ _ _ _ (fun h => h0 ((hcond0_0 t).mp h)) (fun h => h1 ((hcond0_1 t).mp h)) (iblk m c 0 t) (iblk m c 1 t) (iblk m c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro
          exact (View.read_writes_of_cover _ _ _ _ _ (cover_B c _ _ _ _ _ _ _ _ _ _ _ _ _ _ _ _ _)).trans (left_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KBRun.lean ====
/-
  The run of the whole program, for any float instance.

  @main is the one region. The layout is taken by its fields: windows 0 and 1 are both on the array x, so the buffers
  behind the windows' arrays are three (x, W, the result), and x's full share is dealt in two halves to its two windows.
  Conclusion: every weakly fair execution terminates without fault; the result array ends at what the proof data
  compute from the accumulator's write-backs; x and W end as they began.
-/
import proofs.«148815_j86036784874092_1_alg».proof.Proof.KBBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the accumulator's contents are forgotten again. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  exact PhiS_any m c _ _

/-- The three buffers behind the windows' arrays, each whole at the full share, are the four windows' arrays at
    their shares: x's share is split in its two halves, one per window on it. -/
theorem hsplit (c : Dev nD) :
    (Pipeline.arrBufs spec0 c (V m c) : sProp 𝕄) ⊢ (dats m 0 c).arrays ((dats m 0 c).arrAt · 0) := by
  unfold Pipeline.arrBufs Dat.arrays
  rw [Idealize.SL.BI.bigSep_eq_bigSepL_of_eq [main_arg0, main_arg1, main_v0] (by decide) (by decide), bigSep_W0]
  rw [show (dats m 0 c).share 0 = fullShare.left from rfl, show (dats m 0 c).share 1 = fullShare.right from rfl,
    show (dats m 0 c).share 2 = fullShare from rfl, show (dats m 0 c).share 3 = fullShare from rfl,
    (arr_whole0 0).set_eq_univ, (arr_whole0 2).set_eq_univ, (arr_whole0 3).set_eq_univ]
  simp only [Idealize.SL.BI.bigSepL_cons_cons, Idealize.SL.BI.bigSepL_singleton]
  exact (Idealize.SL.BI.Laws.sep_mono (pointsTo_share (PosShare.mem_left_op_right fullShare)).1 (Idealize.SL.BI.Entails.refl _)).trans Idealize.SL.BI.Laws.sep_assoc.1

/-- The run: every execution terminates; every window's array ends at what the proof data compute; nothing else of
    @main's arrays changes. -/
theorem run_main : θ_run defs (onTc (τ := τ) (main (F := F))) (s₀ m ρ) (Pipeline.FramePost cfgs (dats m) 0 (V m)) :=
  Cert.LibSharedLaunch.θ_run_frame_track_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := hin m) (hout := hout m)

/-- The run read at @main's three arrays: the result at the proof data's final array, the two arguments unchanged
    (an input window's array is never written). -/
theorem run_blocks : θ_run defs (onTc (τ := τ) (main (F := F))) ⟨m, fun _ => 0, ρ⟩ (fun r => ∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1 3,
      ((h c).1 0).trans (((dats m 0 c).arrAt_in 0 rfl _).trans (A_eq m c 0)),
      ((h c).1 2).trans (((dats m 0 c).arrAt_in 2 rfl _).trans (A_eq m c 2))⟩) (run_main m ρ)

/-- The frame: the program runs to the end without fault and leaves its two arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_blocks m ρ)

end Cert.Kernel.Hand

end
-- ==== Proof.KIData.lean ====
/-
  The proof data of the one pallas_call, for any float instance.

  The grid is 16 × 16, point t = 16·i + j. At point t the body reads three input blocks: rows 256·i … of x
  (window 0), rows 256·j … of x (window 1, the same array), rows 256·j … of W (window 2). It keeps a running
  [256, 1024] accumulator in its scratch buffer: reset to zero when j = 0, then increased at every point by the
  block's contribution; at j = 15 the accumulator is stored into the output block, which is written back to rows
  256·i … of the result. `accP` is that accumulator after point n, over the skeleton's two payloads.
-/
import proofs.«148815_j86036784874092_1_alg».proof.Proof.Gen.KernelIdeal.Launch
import proofs.«148815_j86036784874092_1_alg».proof.Proof.Gen.KernelIdeal.Skeleton
import proofs.«148815_j86036784874092_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: @main has no operation before it, so the launch memory. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The scratch accumulator, as a whole memref. -/
abbrev scM : Memref sig .tc .vmem S256x1024 .f32 := Memref.whole cc0_scratch0

/-- The accumulator after the body at point `n`: the point's contribution added to zero at the first point of a
    row of the grid (n ≡ 0 mod 16), and to what the point before left otherwise. -/
def accP (c : Dev nD) : (n : ℕ) → n < cfg0.N → Vec F S256x1024 .f32
  | 0, hn => k0_pay2 (iblk m c 0 ⟨0, hn⟩) (iblk m c 1 ⟨0, hn⟩) (iblk m c 2 ⟨0, hn⟩) k0_pay1
  | n + 1, hn => k0_pay2 (iblk m c 0 ⟨n + 1, hn⟩) (iblk m c 1 ⟨n + 1, hn⟩) (iblk m c 2 ⟨n + 1, hn⟩)
      (if (n + 1) % 16 = 0 then k0_pay1 else accP c n (Nat.lt_of_succ_lt hn))

theorem accP_reset (c : Dev nD) (t : Fin cfg0.N) (h0 : t.val % 16 = 0) :
    accP m c t.val t.isLt = k0_pay2 (iblk m c 0 t) (iblk m c 1 t) (iblk m c 2 t) k0_pay1 := by
  obtain ⟨n, hn⟩ := t
  cases n with
  | zero => rfl
  | succ n => exact (by rw [accP]; simp only [if_pos h0])

theorem accP_step (c : Dev nD) (t : Fin cfg0.N) (h0 : ¬t.val % 16 = 0) :
    accP m c t.val t.isLt = k0_pay2 (iblk m c 0 t) (iblk m c 1 t) (iblk m c 2 t)
      (accP m c (t.val - 1) (Nat.lt_of_le_of_lt (Nat.sub_le _ _) t.isLt)) := by
  obtain ⟨n, hn⟩ := t
  cases n with
  | zero => exact absurd (Nat.zero_mod _) h0
  | succ n => exact (by rw [accP]; simp only [if_neg h0]; rfl)

/-- The region invariant before position `n`: before the first point the scratch holds anything; afterwards it
    holds the accumulator the point before left. The generator register rides along at some state. -/
def PhiS (c : Dev nD) : (n : ℕ) → n ≤ cfg0.N → sProp 𝕄
  | 0, _ => Pipeline.ΦA spec0 c
  | n + 1, hn => iprop(iprop(owns (c : Thread nD τ) scM fullShare (accP m c n hn)) ∗ (∃ r, prngReg c r))

/-- The proof data: the arrays as the region finds them; after the body each input's buffer still holds its block and
    the output's the accumulator; the two windows on `x` each hold half of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accP m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = accP m c t.val t.isLt := by dsimp only [dats]

end Cert.KernelIdeal.Hand

end
-- ==== Proof.KIRuns.lean ====
/-
  The kernel body run once per control case, for any float instance.

  The body has two conditionals on the grid's second coordinate j: "j = 0" (zero the accumulator first) and "j = 15"
  (store the accumulator to the output block last). On the 16 × 16 grid three combinations occur: A (j = 0),
  B (0 < j < 15), C (j = 15). In each the body loads the three input blocks, leaves them in place, and leaves in the
  scratch buffer the pieces its stores wrote; in case C it also covers the output block. Each run is a triple over
  whole staging memrefs; the pieces are found by the symbolic run.
-/
import proofs.«148815_j86036784874092_1_alg».proof.Proof.KIData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions, in closed form over the grid -/

/-- "j = 0", as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "j = 15", as the body computes it. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from j = 15 the body stores nothing into the output block, and the block is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the pipeline calls the body with -/

abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .f32 := win0_3.stage (cfg0.slots t 3)
abbrev hs0_3 (t : Fin cfg0.N) : (ms0_3 t).IsWhole := hstage0_3 ((cfg0.slots t 3).cast nbuf0_3)

/-- The scratch as a view, and one staging buffer of the output window as a view: contents are stated through them. -/
abbrev VS : View sig .tc .vmem S256x1024 .f32 := (scM : Memref sig .tc .vmem S256x1024 .f32).view
abbrev VO : View sig .tc .vmem S256x1024 .f32 := (Memref.whole cc0_stg3_0 : Memref sig .tc .vmem S256x1024 .f32).view

/-- The class invariant with the scratch as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The three runs -/

set_option maxHeartbeats 1000000 in
/-- Case B (0 < j < 15): the scratch is handed in at contents `xs`; the output block is untouched. -/
noncomputable def kernelRun_B (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (hc0 : ¬cond0_0 i) (hc1 : ¬cond0_1 i)
    (x0 x1 : Vec F S256x4096 .f32) (x2 xs : Vec F S256x1024 .f32) :
    { LS : List (View.Piece (Elt F) S256x1024 .f32) //
      ∀ (xi3 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__rbf_matmul_kernel i arg2 harg2 arg3 harg3 arg4 harg4 arg5 harg5 arg6 harg6) K } := by
  refine ⟨?_, fun xi3 E K => ?run⟩
  case run =>
    simp only [cc0__rbf_matmul_kernel_eq_skeleton]; unfold cc0__rbf_matmul_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- Case A (j = 0): the scratch is handed in at anything (it is zeroed first); the output block is untouched. -/
noncomputable def kernelRun_A (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (hc0 : cond0_0 i) (hc1 : ¬cond0_1 i)
    (x0 x1 : Vec F S256x4096 .f32) (x2 : Vec F S256x1024 .f32) :
    { LS : List (View.Piece (Elt F) S256x1024 .f32) //
      ∀ (xi3 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__rbf_matmul_kernel i arg2 harg2 arg3 harg3 arg4 harg4 arg5 harg5 arg6 harg6) K } := by
  refine ⟨?_, fun xi3 E K => ?run⟩
  case run =>
    simp only [cc0__rbf_matmul_kernel_eq_skeleton]; unfold cc0__rbf_matmul_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- Case C (j = 15): the scratch is handed in at contents `xs`; the output block, handed in at anything, is covered. -/
noncomputable def kernelRun_C (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (hc0 : ¬cond0_0 i) (hc1 : cond0_1 i)
    (x0 x1 : Vec F S256x4096 .f32) (x2 xs : Vec F S256x1024 .f32) :
    Σ' (LO : List (View.Piece (Elt F) S256x1024 .f32)), { LS : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc0__rbf_matmul_kernel i arg2 harg2 arg3 harg3 arg4 harg4 arg5 harg5 arg6 harg6) K } := by
  refine ⟨?_, ?_, fun E K => ?run⟩
  case run =>
    simp only [cc0__rbf_matmul_kernel_eq_skeleton]; unfold cc0__rbf_matmul_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

end Cert.KernelIdeal.Hand

end
-- ==== Proof.KIPieces.lean ====
/-
  What each case of the body leaves, as values.

  In every case the LAST store into the scratch buffer is a store of the whole block, so the scratch ends at that
  store's payload: the block's contribution added to zero (case A: the zero block just stored is what the body reads
  back) or to what the scratch held (cases B and C). In case C the output block is then covered by one whole store
  of the scratch read back, so it ends at the same value.
-/
import proofs.«148815_j86036784874092_1_alg».proof.Proof.KIRuns
import Idealize.ShloMosaic.Lib.Pipeline.Value
import Idealize.ShloMosaic.Lib.Ring

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-! ## The pieces cover their buffers -/

theorem cover_A (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (hc0 : cond0_0 i) (hc1 : ¬cond0_1 i)
    (x0 x1 : Vec F S256x4096 .f32) (x2 : Vec F S256x1024 .f32) (y : S256x1024.Idx) :
    ∃ pc ∈ (kernelRun_A (F := F) c i arg2 harg2 arg3 harg3 arg4 harg4 arg5 harg5 arg6 harg6 hc0 hc1 x0 x1 x2).1, y ∈ pc.1.set :=
  View.cover_of_tiledL (kernelRun_A (F := F) c i arg2 harg2 arg3 harg3 arg4 harg4 arg5 harg5 arg6 harg6 hc0 hc1 x0 x1 x2).1 S256x1024.size (by sl_kernel_rfl) y

theorem cover_B (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (hc0 : ¬cond0_0 i) (hc1 : ¬cond0_1 i)
    (x0 x1 : Vec F S256x4096 .f32) (x2 xs : Vec F S256x1024 .f32) (y : S256x1024.Idx) :
    ∃ pc ∈ (kernelRun_B (F := F) c i arg2 harg2 arg3 harg3 arg4 harg4 arg5 harg5 arg6 harg6 hc0 hc1 x0 x1 x2 xs).1, y ∈ pc.1.set :=
  View.cover_of_tiledL (kernelRun_B (F := F) c i arg2 harg2 arg3 harg3 arg4 harg4 arg5 harg5 arg6 harg6 hc0 hc1 x0 x1 x2 xs).1 S256x1024.size (by sl_kernel_rfl) y

theorem cover_C_out (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (hc0 : ¬cond0_0 i) (hc1 : cond0_1 i)
    (x0 x1 : Vec F S256x4096 .f32) (x2 xs : Vec F S256x1024 .f32) (y : S256x1024.Idx) :
    ∃ pc ∈ (kernelRun_C (F := F) c i arg2 harg2 arg3 harg3 arg4 harg4 arg5 harg5 arg6 harg6 hc0 hc1 x0 x1 x2 xs).1, y ∈ pc.1.set :=
  View.cover_of_tiledL (kernelRun_C (F := F) c i arg2 harg2 arg3 harg3 arg4 harg4 arg5 harg5 arg6 harg6 hc0 hc1 x0 x1 x2 xs).1 S256x1024.size (by sl_kernel_rfl) y

theorem cover_C (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (hc0 : ¬cond0_0 i) (hc1 : cond0_1 i)
    (x0 x1 : Vec F S256x4096 .f32) (x2 xs : Vec F S256x1024 .f32) (y : S256x1024.Idx) :
    ∃ pc ∈ (kernelRun_C (F := F) c i arg2 harg2 arg3 harg3 arg4 harg4 arg5 harg5 arg6 harg6 hc0 hc1 x0 x1 x2 xs).2.1, y ∈ pc.1.set :=
  View.cover_of_tiledL (kernelRun_C (F := F) c i arg2 harg2 arg3 harg3 arg4 harg4 arg5 harg5 arg6 harg6 hc0 hc1 x0 x1 x2 xs).2.1 S256x1024.size (by sl_kernel_rfl) y

/-! ## What they leave -/

/-- Case A leaves in the scratch the block's contribution added to the zero block. -/
theorem left_A (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (hc0 : cond0_0 i) (hc1 : ¬cond0_1 i)
    (x0 x1 : Vec F S256x4096 .f32) (x2 : Vec F S256x1024 .f32) :
    VS.read (Elt F) (VS.writes (Elt F) VS.junk (kernelRun_A (F := F) c i arg2 harg2 arg3 harg3 arg4 harg4 arg5 harg5 arg6 harg6 hc0 hc1 x0 x1 x2).1) = k0_pay2 x0 x1 x2 k0_pay1 := by
  rw [View.read_writes_eq_canon _ _ _ (cover_A c i arg2 harg2 arg3 harg3 arg4 harg4 arg5 harg5 arg6 harg6 hc0 hc1 x0 x1 x2)]
  unfold kernelRun_A
  dsimp only
  sl_unfold_words
  rw [View.canon_cons_unit_zero (S := S256x1024) hz, View.readCov_unit_zero (S := S256x1024) _ hz]
  simp only [View.readAt_eq_ld, harg2.read_unread, harg3.read_unread, harg4.read_unread, View.ld_unit_zero (S := S256x4096) hz, View.ld_unit_zero (S := S256x1024) hz]

/-- Case B leaves in the scratch the block's contribution added to what it held. -/
theorem left_B (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (hc0 : ¬cond0_0 i) (hc1 : ¬cond0_1 i)
    (x0 x1 : Vec F S256x4096 .f32) (x2 xs : Vec F S256x1024 .f32) :
    VS.read (Elt F) (VS.writes (Elt F) VS.junk (kernelRun_B (F := F) c i arg2 harg2 arg3 harg3 arg4 harg4 arg5 harg5 arg6 harg6 hc0 hc1 x0 x1 x2 xs).1) = k0_pay2 x0 x1 x2 xs := by
  rw [View.read_writes_eq_canon _ _ _ (cover_B c i arg2 harg2 arg3 harg3 arg4 harg4 arg5 harg5 arg6 harg6 hc0 hc1 x0 x1 x2 xs)]
  unfold kernelRun_B
  dsimp only
  sl_unfold_words
  rw [View.canon_unit_zero (S := S256x1024) hz]
  simp only [View.readAt_eq_ld, harg2.read_unread, harg3.read_unread, harg4.read_unread, harg6.read_unread, View.ld_unit_zero (S := S256x4096) hz, View.ld_unit_zero (S := S256x1024) hz]

/-- Case C leaves the same in the scratch, -/
theorem left_C (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (hc0 : ¬cond0_0 i) (hc1 : cond0_1 i)
    (x0 x1 : Vec F S256x4096 .f32) (x2 xs : Vec F S256x1024 .f32) :
    VS.read (Elt F) (VS.writes (Elt F) VS.junk (kernelRun_C (F := F) c i arg2 harg2 arg3 harg3 arg4 harg4 arg5 harg5 arg6 harg6 hc0 hc1 x0 x1 x2 xs).2.1) = k0_pay2 x0 x1 x2 xs := by
  rw [View.read_writes_eq_canon _ _ _ (cover_C c i arg2 harg2 arg3 harg3 arg4 harg4 arg5 harg5 arg6 harg6 hc0 hc1 x0 x1 x2 xs)]
  unfold kernelRun_C
  dsimp only
  sl_unfold_words
  rw [View.canon_unit_zero (S := S256x1024) hz]
  simp only [View.readAt_eq_ld, harg2.read_unread, harg3.read_unread, harg4.read_unread, harg6.read_unread, View.ld_unit_zero (S := S256x4096) hz, View.ld_unit_zero (S := S256x1024) hz]

/-- and in the output block, which it covers with the scratch read back. -/
theorem left_C_out (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (hc0 : ¬cond0_0 i) (hc1 : cond0_1 i)
    (x0 x1 : Vec F S256x4096 .f32) (x2 xs : Vec F S256x1024 .f32) :
    VO.read (Elt F) (VO.writes (Elt F) VO.junk (kernelRun_C (F := F) c i arg2 harg2 arg3 harg3 arg4 harg4 arg5 harg5 arg6 harg6 hc0 hc1 x0 x1 x2 xs).1) = k0_pay2 x0 x1 x2 xs := by
  rw [View.read_writes_eq_canon _ _ _ (cover_C_out c i arg2 harg2 arg3 harg3 arg4 harg4 arg5 harg5 arg6 harg6 hc0 hc1 x0 x1 x2 xs)]
  unfold kernelRun_C
  dsimp only
  sl_unfold_words
  rw [View.canon_unit_zero (S := S256x1024) hz, View.readCov_unit_zero (S := S256x1024) _ hz]
  simp only [View.readAt_eq_ld, harg2.read_unread, harg3.read_unread, harg4.read_unread, harg6.read_unread, View.ld_unit_zero (S := S256x4096) hz, View.ld_unit_zero (S := S256x1024) hz]

end Cert.KernelIdeal.Hand

end
-- ==== Proof.KIBody.lean ====
/-
  The body obligation at every grid point, the arrays' shares at entry, and the run of the whole program.

  At a point t = 16·i + j the pipeline hands the body the three input blocks (each input's staging buffer holds its
  block whether or not it was fetched at this point) and the scratch at what the point before left. By cases on
  j = 0, 0 < j < 15, j = 15 the matching run of the body applies, and the scratch (and at j = 15 the output block) is
  left at the accumulator `accP`. The array x is read through two windows; its full share is split in two halves at
  entry. The launch then gives: every execution terminates, the result array ends at what the write-backs of the
  accumulator at the points j = 15 leave, and x and W end unchanged.
-/
import proofs.«148815_j86036784874092_1_alg».proof.Proof.KIPieces
import proofs.«148815_j86036784874092_1_alg».proof.Proof.LibSharedLaunch

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant, point by point -/

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accP m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accP m c (n - 1) (by omega))) ∗ (∃ r, prngReg c r)) := by
  cases n with
  | zero => exact absurd rfl hz
  | succ n => rfl

theorem PhiS_castSucc (c : Dev nD) (t : Fin cfg0.N) :
    (dats m 0 c).Φ t.castSucc = PhiS m c t.val (Nat.le_of_lt t.isLt) := by
  dsimp only [dats]; simp only [Fin.coe_castSucc]

/-- Whatever the point, the invariant holds the scratch at SOME contents: all a point with j = 0 needs. -/
theorem PhiS_any (c : Dev nD) (n : ℕ) (h : n ≤ cfg0.N) :
    PhiS m c n h ⊢ iprop(iprop((∃ d, owns (c : Thread nD τ) scM fullShare d)) ∗ (∃ r, prngReg c r)) := by
  by_cases hz : n = 0
  · rw [PhiS_zero m c n h hz, PhiA0_eq]
  · rw [PhiS_pos m c n h hz]
    iintro ⟨HS, Hg⟩
    isplitl [HS]
    · iexists _; iexact HS
    iexact Hg

/-! ## Each input's buffer holds its block -/

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [PhiS_castSucc m c t]
  by_cases h0 : t.val % 16 = 0
  · have h1 : ¬t.val % 16 = 15 := by omega
    rw [Dat.leavesExact_idle (dats m 0 c) 3 t (idleAt0_3 t (fun h => h1 ((hcond0_1 t).mp h))) (noFlush0_3 t (fun h => h1 ((hcond0_1 t).mp h)))]
    rw [accP_reset m c t h0]
    by_cases hz : t.val = 0
    · rw [PhiS_zero m c _ _ hz, PhiA0_eq]
      iintro ⟨⟨HS, Hg⟩, Ho, ⟨%d0, H0⟩, ⟨%d1, H1⟩, ⟨%d2, H2⟩, ⟨%d3, H3⟩⟩
      iapply ((kernelRun_A c (grid0.coords t) _ _ _ _ _ _ _ _ _ _ ((hcond0_0 t).mpr h0) (fun h => h1 ((hcond0_1 t).mp h)) (iblk m c 0 t) (iblk m c 1 t) (iblk m c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro
          exact (View.read_writes_of_cover _ _ _ _ _ (cover_A c _ _ _ _ _ _ _ _ _ _ _ _ _ _ _ _)).trans (left_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_pos m c _ _ hz]
      iintro ⟨⟨HS, Hg⟩, Ho, ⟨%d0, H0⟩, ⟨%d1, H1⟩, ⟨%d2, H2⟩, ⟨%d3, H3⟩⟩
      iapply ((kernelRun_A c (grid0.coords t) _ _ _ _ _ _ _ _ _ _ ((hcond0_0 t).mpr h0) (fun h => h1 ((hcond0_1 t).mp h)) (iblk m c 0 t) (iblk m c 1 t) (iblk m c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg]
      · isplitl [HS]
        · unfold owns; iexists _; isplitr
          swap; · iexact HS
          ipureintro
          exact (View.read_writes_of_cover _ _ _ _ _ (cover_A c _ _ _ _ _ _ _ _ _ _ _ _ _ _ _ _)).trans (left_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [PhiS_pos m c _ _ hz, accP_step m c t h0]
    by_cases h1 : t.val % 16 = 15
    · rw [show (dats m 0 c).leavesExact 3 t = owns (c : Thread nD τ) (ms0_3 t) fullShare ((dats m 0 c).after 3 t) from by
        unfold Dat.leavesExact; rw [liveAt0_3 t ((hcond0_1 t).mpr h1)], after0_3, accP_step m c t h0]
      iintro ⟨⟨HS, Hg⟩, Ho, ⟨%d0, H0⟩, ⟨%d1, H1⟩, ⟨%d2, H2⟩, ⟨%d3, H3⟩⟩
      iapply ((kernelRun_C c (grid0.coords t) _ _ _ _ _ _ _ _ _ _ (fun h => h0 ((hcond0_0 t).mp h)) ((hcond0_1 t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro
          exact (View.read_writes_of_cover _ _ _ _ _ (cover_C c _ _ _ _ _ _ _ _ _ _ _ _ _ _ _ _ _)).trans (left_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro
      exact (View.read_writes_of_cover _ _ VO VO.junk _ (cover_C_out c _ _ _ _ _ _ _ _ _ _ _ _ _ _ _ _ _)).trans (left_C_out c _ _ _ _ _ _ _ _ _ _ _ _ _ _ _ _ _)
    · rw [Dat.leavesExact_idle (dats m 0 c) 3 t (idleAt0_3 t (fun h => h1 ((hcond0_1 t).mp h))) (noFlush0_3 t (fun h => h1 ((hcond0_1 t).mp h)))]
      iintro ⟨⟨HS, Hg⟩, Ho, ⟨%d0, H0⟩, ⟨%d1, H1⟩, ⟨%d2, H2⟩, ⟨%d3, H3⟩⟩
      iapply ((kernelRun_B c (grid0.coords t) _ _ _ _ _ _ _ _ _ _ (fun h => h0 ((hcond0_0 t).mp h)) (fun h => h1 ((hcond0_1 t).mp h)) (iblk m c 0 t) (iblk m c 1 t) (iblk m c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro
          exact (View.read_writes_of_cover _ _ _ _ _ (cover_B c _ _ _ _ _ _ _ _ _ _ _ _ _ _ _ _ _)).trans (left_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIRun.lean ====
/-
  The run of the whole program, for any float instance.

  @main is the one region. The layout is taken by its fields: windows 0 and 1 are both on the array x, so the buffers
  behind the windows' arrays are three (x, W, the result), and x's full share is dealt in two halves to its two windows.
  Conclusion: every weakly fair execution terminates without fault; the result array ends at what the proof data
  compute from the accumulator's write-backs; x and W end as they began.
-/
import proofs.«148815_j86036784874092_1_alg».proof.Proof.KIBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the accumulator's contents are forgotten again. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  exact PhiS_any m c _ _

/-- The three buffers behind the windows' arrays, each whole at the full share, are the four windows' arrays at
    their shares: x's share is split in its two halves, one per window on it. -/
theorem hsplit (c : Dev nD) :
    (Pipeline.arrBufs spec0 c (V m c) : sProp 𝕄) ⊢ (dats m 0 c).arrays ((dats m 0 c).arrAt · 0) := by
  unfold Pipeline.arrBufs Dat.arrays
  rw [Idealize.SL.BI.bigSep_eq_bigSepL_of_eq [main_arg0, main_arg1, main_v0] (by decide) (by decide), bigSep_W0]
  rw [show (dats m 0 c).share 0 = fullShare.left from rfl, show (dats m 0 c).share 1 = fullShare.right from rfl,
    show (dats m 0 c).share 2 = fullShare from rfl, show (dats m 0 c).share 3 = fullShare from rfl,
    (arr_whole0 0).set_eq_univ, (arr_whole0 2).set_eq_univ, (arr_whole0 3).set_eq_univ]
  simp only [Idealize.SL.BI.bigSepL_cons_cons, Idealize.SL.BI.bigSepL_singleton]
  exact (Idealize.SL.BI.Laws.sep_mono (pointsTo_share (PosShare.mem_left_op_right fullShare)).1 (Idealize.SL.BI.Entails.refl _)).trans Idealize.SL.BI.Laws.sep_assoc.1

/-- The run: every execution terminates; every window's array ends at what the proof data compute; nothing else of
    @main's arrays changes. -/
theorem run_main : θ_run defs (onTc (τ := τ) (main (F := F))) (s₀ m ρ) (Pipeline.FramePost cfgs (dats m) 0 (V m)) :=
  Cert.LibSharedLaunch.θ_run_frame_track_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := hin m) (hout := hout m)

/-- The run read at @main's three arrays: the result at the proof data's final array, the two arguments unchanged
    (an input window's array is never written). -/
theorem run_blocks : θ_run defs (onTc (τ := τ) (main (F := F))) ⟨m, fun _ => 0, ρ⟩ (fun r => ∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1 3,
      ((h c).1 0).trans (((dats m 0 c).arrAt_in 0 rfl _).trans (A_eq m c 0)),
      ((h c).1 2).trans (((dats m 0 c).arrAt_in 2 rfl _).trans (A_eq m c 2))⟩) (run_main m ρ)

/-- The frame: the program runs to the end without fault and leaves its two arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_blocks m ρ)

end Cert.KernelIdeal.Hand

end
-- ==== Proof.RbfSpec.lean ====
/-
  The function both programs compute, on the extended reals.

  For x : [4096, 4096] and W : [4096, 1024], with s r = Σ_d x[r,d]², g r n = Σ_d x[r,d]·x[n,d] and
  k r n = exp(−½ · ((s r + s n) − 2 · g r n)), the result is  out[r, o] = Σ_n k r n · W[n, o].
  The two float literals stay as their binary words (the same words on both sides, never evaluated).
  `rbfB` is the same kernel-matrix entry over two row blocks of 256 rows each; `Gpart` is the sum over the first
  `b` column blocks of 256, which is what the tiled program has accumulated after `b` steps of a grid row.
-/
import Idealize.ShloMosaic.PureOps.Ideal
import Idealize.ShloMosaic.PureOps.Ideal.Laws
import Idealize.ShloMosaic.Lib.ValueIdx

noncomputable section

namespace Cert.RbfSpec

open Idealize.ShloMosaic Idealize.ShloMosaic.ValueIdx

abbrev SX : Shape := ⟨2, ![4096, 4096]⟩
abbrev SW : Shape := ⟨2, ![4096, 1024]⟩
abbrev SXb : Shape := ⟨2, ![256, 4096]⟩
abbrev SWb : Shape := ⟨2, ![256, 1024]⟩

/-- −½, as the word both programs carry. -/
abbrev cHalf : EReal := Ideal.ofBits .f32 0xBF000000#32
/-- 2, as the word both programs carry. -/
abbrev cTwo : EReal := Ideal.ofBits .f32 0x40000000#32

/-- The kernel-matrix entry from the two squared norms and the inner product. -/
def rbfOf (si sn g : EReal) : EReal := Ideal.exp (cHalf * ((si + sn) - cTwo * g))

/-- Squared norm of row `r` of `x`. -/
def rowSq (x : SX.Idx → EReal) (r : Fin 4096) : EReal := ∑ d : Fin 4096, x (ix2 r d) * x (ix2 r d)
/-- Inner product of rows `r` and `n` of `x`. -/
def gram (x : SX.Idx → EReal) (r n : Fin 4096) : EReal := ∑ d : Fin 4096, x (ix2 r d) * x (ix2 n d)
/-- The kernel matrix. -/
def rbf (x : SX.Idx → EReal) (r n : Fin 4096) : EReal := rbfOf (rowSq x r) (rowSq x n) (gram x r n)

/-- The result at row `r`, column `o`. -/
def Gat (x : SX.Idx → EReal) (W : SW.Idx → EReal) (r : Fin 4096) (o : Fin 1024) : EReal :=
  ∑ n : Fin 4096, rbf x r n * W (ix2 n o)

/-- The result, as one function of the two argument arrays. -/
def G (x : SX.Idx → EReal) (W : SW.Idx → EReal) : SW.Idx → EReal := fun i => Gat x W (i 0) (i 1)

/-- The kernel-matrix entry between row `p` of one 256-row block and row `n` of another. -/
def rbfB (xi xj : SXb.Idx → EReal) (p n : Fin 256) : EReal :=
  rbfOf (∑ d : Fin 4096, xi (ix2 p d) * xi (ix2 p d)) (∑ d : Fin 4096, xj (ix2 n d) * xj (ix2 n d))
    (∑ d : Fin 4096, xi (ix2 p d) * xj (ix2 n d))

/-- Row index 256·b + p of a 4096-row array. -/
def row (b : Fin 16) (p : Fin 256) : Fin 4096 := ⟨256 * b.val + p.val, by have := b.isLt; have := p.isLt; omega⟩

/-- The part of `Gat` over the column blocks below `k`: what a grid row has accumulated after `k` steps. -/
def Gpart (x : SX.Idx → EReal) (W : SW.Idx → EReal) (r : Fin 4096) (o : Fin 1024) (k : ℕ) : EReal :=
  ∑ b ∈ (Finset.univ : Finset (Fin 16)).filter (fun b => b.val < k), ∑ n : Fin 256, rbf x r (row b n) * W (ix2 (row b n) o)

end Cert.RbfSpec

end
-- ==== Proof.LibKeepdims.lean ====
/-
  Column forms of a kept unit axis, read at an index: a vector `[a]` viewed as the column `[a, 1]` reads its entry at
  the row, and a column `[a, 1]` broadcast along its unit axis to `[a, b]` reads, at `(p, c)`, the column's entry
  in row `p`. Together with the row forms (`[a]` as `[1, a]`, and `[1, b]` over `[a, b]`) these read a sum that
  keeps its reduced axis and is then broadcast against a two-dimensional tile.
-/
import Idealize.ShloMosaic.Lib.Pipeline.Value
import Idealize.ShloMosaic.Lib.ValueIdx

noncomputable section

namespace Cert.LibKeepdims

open Idealize.ShloMosaic Idealize.ShloMosaic.ValueIdx

variable {α : Type}

/-- A vector `[a]` cast to the column `[a, 1]` reads, at `(i, u)`, the vector at `i`: both have row-major position `i`,
    the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is
    kept (or is `0` already when `a = 1`), the unit axis reads its only coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.KIPayload.lean ====
/-
  The two values the tiled body stores into its accumulator, read at an index, on the extended reals.

  The first is the zero tile. The second is the accumulator it was given plus the block's contribution: at row p and
  column o, the sum over the 256 rows n of the second row block of the kernel-matrix entry between row p of the first
  block and row n of the second, times W's block at (n, o). The entry is exp(−½ · ((s p + s' n) − 2 · g p n)) with s, s'
  the squared norms of the two blocks' rows and g their inner product: the row sums are kept as a column, one of them
  turned into a row, both spread over the [256, 256] tile; the inner products and the final product are sums over the
  one shared axis of their operands.
-/
import proofs.«148815_j86036784874092_1_alg».proof.Proof.Gen.KernelIdeal.Skeleton
import proofs.«148815_j86036784874092_1_alg».proof.Proof.RbfSpec
import proofs.«148815_j86036784874092_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen Idealize.ShloMosaic Idealize.ShloMosaic.ValueIdx

/-- The reset payload is the zero tile. -/
theorem pay1_apply (i : S256x1024.Idx) : (k0_pay1 (F := Ideal)) i = 0 := by
  unfold k0_pay1
  rw [shapeCast_self]
  exact Ideal.ofBits_zero_f32

/-! ## The product of the kernel-matrix tile with W's block -/

theorem lhsKW_0 (i : S256x1024.Idx) (q : dot_S256x256_S256x1024_S256x1024_1_0_0_1_n_n.contr.Idx) :
    (dot_S256x256_S256x1024_S256x1024_1_0_0_1_n_n.lhsIdx i q 0).val = (i 0).val := by
  unfold DotDims.lhsIdx
  rw [dif_neg (show ¬(0 : Fin S256x256.rank) ∈ dot_S256x256_S256x1024_S256x1024_1_0_0_1_n_n.lhsBatch by decide), dif_pos (show (0 : Fin S256x256.rank) ∈ dot_S256x256_S256x1024_S256x1024_1_0_0_1_n_n.lhsNonContracting by decide)]
  rfl
theorem lhsKW_1 (i : S256x1024.Idx) (q : dot_S256x256_S256x1024_S256x1024_1_0_0_1_n_n.contr.Idx) :
    (dot_S256x256_S256x1024_S256x1024_1_0_0_1_n_n.lhsIdx i q 1).val = (q ⟨0, by decide⟩).val :=
  dot_S256x256_S256x1024_S256x1024_1_0_0_1_n_n.lhsIdx_val_of_single rfl i q
theorem rhsKW_0 (i : S256x1024.Idx) (q : dot_S256x256_S256x1024_S256x1024_1_0_0_1_n_n.contr.Idx) :
    (dot_S256x256_S256x1024_S256x1024_1_0_0_1_n_n.rhsIdx i q 0).val = (q ⟨0, by decide⟩).val :=
  dot_S256x256_S256x1024_S256x1024_1_0_0_1_n_n.rhsIdx_val_of_single rfl i q
theorem rhsKW_1 (i : S256x1024.Idx) (q : dot_S256x256_S256x1024_S256x1024_1_0_0_1_n_n.contr.Idx) :
    (dot_S256x256_S256x1024_S256x1024_1_0_0_1_n_n.rhsIdx i q 1).val = (i 1).val := by
  unfold DotDims.rhsIdx
  rw [dif_neg (show ¬(1 : Fin S256x1024.rank) ∈ dot_S256x256_S256x1024_S256x1024_1_0_0_1_n_n.rhsBatch by decide), dif_pos (show (1 : Fin S256x1024.rank) ∈ dot_S256x256_S256x1024_S256x1024_1_0_0_1_n_n.rhsNonContracting by decide)]
  rfl

/-- The [256,256] × [256,1024] product into the zero tile, at (p, o): the sum over the shared axis. -/
theorem matmulKW_apply (a : FVec Ideal S256x256 .bf16) (b : FVec Ideal S256x1024 .bf16) (p : Fin 256) (o : Fin 1024) :
    matmul dot_S256x256_S256x1024_S256x1024_1_0_0_1_n_n none a b (constant (F := Ideal) S256x1024 .f32 0x00000000#32) (ix2 p o)
      = ∑ n : Fin 256, a (ix2 p n) * b (ix2 n o) := by
  simp only [matmul]
  rw [Ideal.matmul_constant_zero_apply, ← Equiv.sum_comp (contrEquiv1 dot_S256x256_S256x1024_S256x1024_1_0_0_1_n_n 256 rfl rfl).symm]
  refine Finset.sum_congr rfl fun k _ => ?_
  have hk := contrEquiv1_symm_val dot_S256x256_S256x1024_S256x1024_1_0_0_1_n_n 256 rfl rfl k
  have el : dot_S256x256_S256x1024_S256x1024_1_0_0_1_n_n.lhsIdx (ix2 p o) ((contrEquiv1 dot_S256x256_S256x1024_S256x1024_1_0_0_1_n_n 256 rfl rfl).symm k) = ix2 p k := funext fun a => Fin.ext (by
    match a with
    | ⟨0, _⟩ => exact lhsKW_0 _ _
    | ⟨1, _⟩ => exact (lhsKW_1 _ _).trans hk)
  have er : dot_S256x256_S256x1024_S256x1024_1_0_0_1_n_n.rhsIdx (ix2 p o) ((contrEquiv1 dot_S256x256_S256x1024_S256x1024_1_0_0_1_n_n 256 rfl rfl).symm k) = ix2 k o := funext fun a => Fin.ext (by
    match a with
    | ⟨0, _⟩ => exact (rhsKW_0 _ _).trans hk
    | ⟨1, _⟩ => exact rhsKW_1 _ _)
  rw [el, er]

/-! ## The product of the two row blocks of x along their columns -/

theorem lhsXX_0 (i : S256x256.Idx) (q : dot_S256x4096_S256x4096_S256x256_1_1_0_0_n_n.contr.Idx) :
    (dot_S256x4096_S256x4096_S256x256_1_1_0_0_n_n.lhsIdx i q 0).val = (i 0).val := by
  unfold DotDims.lhsIdx
  rw [dif_neg (show ¬(0 : Fin S256x4096.rank) ∈ dot_S256x4096_S256x4096_S256x256_1_1_0_0_n_n.lhsBatch by decide), dif_pos (show (0 : Fin S256x4096.rank) ∈ dot_S256x4096_S256x4096_S256x256_1_1_0_0_n_n.lhsNonContracting by decide)]
  rfl
theorem lhsXX_1 (i : S256x256.Idx) (q : dot_S256x4096_S256x4096_S256x256_1_1_0_0_n_n.contr.Idx) :
    (dot_S256x4096_S256x4096_S256x256_1_1_0_0_n_n.lhsIdx i q 1).val = (q ⟨0, by decide⟩).val :=
  dot_S256x4096_S256x4096_S256x256_1_1_0_0_n_n.lhsIdx_val_of_single rfl i q
theorem rhsXX_0 (i : S256x256.Idx) (q : dot_S256x4096_S256x4096_S256x256_1_1_0_0_n_n.contr.Idx) :
    (dot_S256x4096_S256x4096_S256x256_1_1_0_0_n_n.rhsIdx i q 0).val = (i 1).val := by
  unfold DotDims.rhsIdx
  rw [dif_neg (show ¬(0 : Fin S256x4096.rank) ∈ dot_S256x4096_S256x4096_S256x256_1_1_0_0_n_n.rhsBatch by decide), dif_pos (show (0 : Fin S256x4096.rank) ∈ dot_S256x4096_S256x4096_S256x256_1_1_0_0_n_n.rhsNonContracting by decide)]
  rfl
theorem rhsXX_1 (i : S256x256.Idx) (q : dot_S256x4096_S256x4096_S256x256_1_1_0_0_n_n.contr.Idx) :
    (dot_S256x4096_S256x4096_S256x256_1_1_0_0_n_n.rhsIdx i q 1).val = (q ⟨0, by decide⟩).val :=
  dot_S256x4096_S256x4096_S256x256_1_1_0_0_n_n.rhsIdx_val_of_single rfl i q

/-- The [256,4096] × [256,4096] product along both second axes into the zero tile, at (p, n): the inner product of
    row p of the first operand with row n of the second. -/
theorem matmulXX_apply (a b : FVec Ideal S256x4096 .bf16) (p n : Fin 256) :
    matmul dot_S256x4096_S256x4096_S256x256_1_1_0_0_n_n none a b (constant (F := Ideal) S256x256 .f32 0x00000000#32) (ix2 p n)
      = ∑ d : Fin 4096, a (ix2 p d) * b (ix2 n d) := by
  simp only [matmul]
  rw [Ideal.matmul_constant_zero_apply, ← Equiv.sum_comp (contrEquiv1 dot_S256x4096_S256x4096_S256x256_1_1_0_0_n_n 4096 rfl rfl).symm]
  refine Finset.sum_congr rfl fun k _ => ?_
  have hk := contrEquiv1_symm_val dot_S256x4096_S256x4096_S256x256_1_1_0_0_n_n 4096 rfl rfl k
  have el : dot_S256x4096_S256x4096_S256x256_1_1_0_0_n_n.lhsIdx (ix2 p n) ((contrEquiv1 dot_S256x4096_S256x4096_S256x256_1_1_0_0_n_n 4096 rfl rfl).symm k) = ix2 p k := funext fun a => Fin.ext (by
    match a with
    | ⟨0, _⟩ => exact lhsXX_0 _ _
    | ⟨1, _⟩ => exact (lhsXX_1 _ _).trans hk)
  have er : dot_S256x4096_S256x4096_S256x256_1_1_0_0_n_n.rhsIdx (ix2 p n) ((contrEquiv1 dot_S256x4096_S256x4096_S256x256_1_1_0_0_n_n 4096 rfl rfl).symm k) = ix2 n k := funext fun a => Fin.ext (by
    match a with
    | ⟨0, _⟩ => exact rhsXX_0 _ _
    | ⟨1, _⟩ => exact (rhsXX_1 _ _).trans hk)
  rw [el, er]

/-! ## The row sums and their column and row forms -/

/-- The sum over the second axis of a [256,4096] tile, at row p. -/
theorem rowSum_apply (y : FVec Ideal S256x4096 .f32) (hφ : FKind.Formats .f32) (hacc : (0x00000000#32 : BitVec 32) = 0x00000000#32) (p : Fin 256) :
    multiReduction (F := Ideal) .add [1] S256 y 0x00000000#32 reduces_S256x4096_S256 hφ hacc (ix1 p) = ∑ d : Fin 4096, y (ix2 p d) := by
  refine (Ideal.multiReduction_add_single y 0x00000000#32 reduces_S256x4096_S256 hφ hacc (ix1 p)).trans ?_
  refine Finset.sum_congr rfl fun d _ => ?_
  exact congrArg y (funext fun a => Fin.ext (by match a with | ⟨0, _⟩ => rfl | ⟨1, _⟩ => rfl))

/-- A column [256,1] transposed to the row [1,256] reads, at (0, n), the column's entry in row n. -/
theorem transpose_col_row_apply (v : FVec Ideal S256x1 .f32) (u : Fin 1) (n : Fin 256) :
    transpose S1x256 [1, 0] v transposes_S256x1_p1_0_S1x256 (ix2 u n) = v (ix2 n (0 : Fin 1)) := by
  refine transpose_apply [1, 0] v transposes_S256x1_p1_0_S1x256 (ix2 u n) (ix2 n (0 : Fin 1)) fun b => ?_
  match b with
  | ⟨0, _⟩ => show (0 : ℕ) = u.val; omega
  | ⟨1, _⟩ => rfl

/-- The squared norms of the first block's rows, kept as a column and spread over the tile: at (p, n), row p's. -/
theorem sqCol_apply (y : FVec Ideal S256x4096 .f32) (p n : Fin 256) :
    broadcastTo S256x256 (shapeCast S256x1 (multiReduction (F := Ideal) .add [1] S256 y 0x00000000#32 reduces_S256x4096_S256 (.inl rfl) rfl)
      shapeCasts_S256_S256x1) broadcasts_S256x1_S256x256 (ix2 p n) = ∑ d : Fin 4096, y (ix2 p d) := by
  refine (Cert.LibKeepdims.broadcastTo_a1_ab_apply _ broadcasts_S256x1_S256x256 p n).trans ?_
  refine (Cert.LibKeepdims.shapeCast_a_a1_apply _ shapeCasts_S256_S256x1 p (0 : Fin 1)).trans ?_
  exact rowSum_apply y _ _ p

/-- The squared norms of the second block's rows, turned into a row and spread over the tile: at (p, n), row n's. -/
theorem sqRow_apply (y : FVec Ideal S256x4096 .f32) (p n : Fin 256) :
    broadcastTo S256x256 (transpose S1x256 [1, 0] (shapeCast S256x1 (multiReduction (F := Ideal) .add [1] S256 y 0x00000000#32 reduces_S256x4096_S256 (.inl rfl) rfl)
      shapeCasts_S256_S256x1) transposes_S256x1_p1_0_S1x256) broadcasts_S1x256_S256x256 (ix2 p n) = ∑ d : Fin 4096, y (ix2 n d) := by
  refine (broadcastTo_1b_ab_apply _ broadcasts_S1x256_S256x256 p n).trans ?_
  refine (transpose_col_row_apply _ (0 : Fin 1) n).trans ?_
  refine (Cert.LibKeepdims.shapeCast_a_a1_apply _ shapeCasts_S256_S256x1 n (0 : Fin 1)).trans ?_
  exact rowSum_apply y _ _ n

/-! ## The kernel-matrix tile and the step payload -/

/-- The tile's pointwise arithmetic, at an index: the kernel-matrix entry of the three quantities there. -/
theorem rbfTile_apply (A B C : FVec Ideal S256x256 .f32) (i : S256x256.Idx) :
    truncf .bf16 (exp (mulf (broadcast S256x256 (Scalar.ofBits (F := Ideal) .f32 0xBF000000#32))
      (subf (addf A B) (mulf (broadcast S256x256 (Scalar.ofBits (F := Ideal) .f32 0x40000000#32)) C)))) bitsLt_bf16_f32 i
      = Cert.RbfSpec.rbfOf (A i) (B i) (C i) := rfl

/-- The step payload: the given accumulator plus the block's kernel-matrix rows against W's block. -/
theorem pay2_apply (xi xj : Vec Ideal S256x4096 .f32) (w acc : Vec Ideal S256x1024 .f32) (p : Fin 256) (o : Fin 1024) :
    k0_pay2 xi xj w acc (ix2 p o) = acc (ix2 p o) + ∑ n : Fin 256, Cert.RbfSpec.rbfB xi xj p n * w (ix2 n o) := by
  unfold k0_pay2
  rw [shapeCast_self]
  refine (addf_apply _ _ _).trans ?_
  refine congrArg (acc (ix2 p o) + ·) ?_
  refine (matmulKW_apply _ _ p o).trans ?_
  refine Finset.sum_congr rfl fun n _ => ?_
  refine congrArg (· * w (ix2 n o)) ?_
  refine (rbfTile_apply _ _ _ (ix2 p n)).trans ?_
  rw [sqCol_apply, sqRow_apply, matmulXX_apply]
  rfl

end Cert.KernelIdeal.Hand

end
-- ==== Proof.RbfSums.lean ====
/-
  The partial sums of the result over column blocks of 256: the empty sum, one more block, and all sixteen blocks.
-/
import proofs.«148815_j86036784874092_1_alg».proof.Proof.RbfSpec
import Mathlib.Algebra.BigOperators.Fin

noncomputable section

namespace Cert.RbfSpec

open Idealize.ShloMosaic Idealize.ShloMosaic.ValueIdx

/-- Every row index below 4096 is 256·b + p for exactly one block b < 16 and offset p < 256. -/
theorem row_bijective : Function.Bijective (fun p : Fin 16 × Fin 256 => row p.1 p.2) := by
  rw [Function.bijective_iff_has_inverse]
  refine ⟨fun m => (⟨m.val / 256, by have := m.isLt; omega⟩, ⟨m.val % 256, by omega⟩), ?_, ?_⟩
  · rintro ⟨b, n⟩
    have hb := b.isLt
    have hn := n.isLt
    apply Prod.ext
    · apply Fin.ext
      show (256 * b.val + n.val) / 256 = b.val
      omega
    · apply Fin.ext
      show (256 * b.val + n.val) % 256 = n.val
      omega
  · intro m
    apply Fin.ext
    show 256 * (m.val / 256) + m.val % 256 = m.val
    omega

/-- A sum over 4096 rows, taken block by block: sixteen blocks of 256 rows. Holds in any additive commutative monoid. -/
theorem sum_row_blocks {M : Type*} [AddCommMonoid M] (f : Fin 4096 → M) :
    ∑ b : Fin 16, ∑ n : Fin 256, f (row b n) = ∑ m : Fin 4096, f m := by
  rw [← Fintype.sum_prod_type']
  exact Fintype.sum_bijective (fun p : Fin 16 × Fin 256 => row p.1 p.2) row_bijective _ _ (fun _ => rfl)

/-- No block lies below block 0: the sum is empty. -/
theorem Gpart_zero (x : SX.Idx → EReal) (W : SW.Idx → EReal) (r : Fin 4096) (o : Fin 1024) : Gpart x W r o 0 = 0 := by
  unfold Gpart
  simp

/-- The blocks below k + 1 are the blocks below k together with block k. -/
theorem Gpart_succ (x : SX.Idx → EReal) (W : SW.Idx → EReal) (r : Fin 4096) (o : Fin 1024) (k : ℕ) (hk : k < 16) :
    Gpart x W r o (k + 1) = Gpart x W r o k + ∑ n : Fin 256, rbf x r (row ⟨k, hk⟩ n) * W (ix2 (row ⟨k, hk⟩ n) o) := by
  unfold Gpart
  have h : (Finset.univ : Finset (Fin 16)).filter (fun b => b.val < k + 1)
      = insert (⟨k, hk⟩ : Fin 16) ((Finset.univ : Finset (Fin 16)).filter (fun b => b.val < k)) := by
    ext b
    simp only [Finset.mem_filter, Finset.mem_univ, true_and, Finset.mem_insert, Fin.ext_iff]
    omega
  have hnot : (⟨k, hk⟩ : Fin 16) ∉ (Finset.univ : Finset (Fin 16)).filter (fun b => b.val < k) := by
    simp
  rw [h, Finset.sum_insert hnot, add_comm]

/-- All sixteen blocks lie below 16, and together they are all 4096 rows. -/
theorem Gpart_full (x : SX.Idx → EReal) (W : SW.Idx → EReal) (r : Fin 4096) (o : Fin 1024) : Gpart x W r o 16 = Gat x W r o := by
  unfold Gpart Gat
  have h : (Finset.univ : Finset (Fin 16)).filter (fun b => b.val < 16) = Finset.univ := by
    apply Finset.filter_true_of_mem
    intro b _
    exact b.isLt
  rw [h]
  exact sum_row_blocks (fun m => rbf x r m * W (ix2 m o))

end Cert.RbfSpec

end
-- ==== Proof.KIValue.lean ====
/-
  From the tiled program's blocks to its result array, on the extended reals.

  The grid is 16 × 16 and point t stands at grid row t / 16 and grid column t % 16. At point t the first window on x
  is rows 256·(t / 16) … of x, the second window on x is rows 256·(t % 16) … of x, the window on W is rows
  256·(t % 16) … of W, and the output block is rows 256·(t / 16) … of the result. So the kernel-matrix entry between
  row p of the first block and row n of the second is the entry of the whole kernel matrix at rows 256·(t / 16) + p
  and 256·(t % 16) + n, and after the point at grid column j the accumulator holds, at (p, o), the part of the result
  at row 256·(t / 16) + p and column o that comes from the column blocks 0 … j. At grid column 15 that is the whole
  sum over the 4096 rows, the block is written back, and the sixteen written blocks cover the result array.
-/
import proofs.«148815_j86036784874092_1_alg».proof.Proof.KIData
import proofs.«148815_j86036784874092_1_alg».proof.Proof.KIPayload
import proofs.«148815_j86036784874092_1_alg».proof.Proof.RbfSums
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen
open Cert.RbfSpec (row rbf rbfB Gpart Gat SX SW SXb SWb)

variable (m : (ℓ : Loc nD τ sig) → Buf (Elt Ideal) ℓ)

/-- The argument x as core c finds it, as a function on the indices of a [4096, 4096] array. -/
abbrev xArr (c : Dev nD) : SX.Idx → EReal := m ((c : Thread nD τ).loc main_arg0)
/-- The argument W as core c finds it, as a function on the indices of a [4096, 1024] array. -/
abbrev wArr (c : Dev nD) : SW.Idx → EReal := m ((c : Thread nD τ).loc main_arg1)

/-- The grid row of point t. -/
abbrev bi (t : Fin cfg0.N) : Fin 16 := ⟨t.val / 16, by have h := t.isLt; have hN : cfg0.N = 256 := N_0; omega⟩
/-- The grid column of point t. -/
abbrev bj (t : Fin cfg0.N) : Fin 16 := ⟨t.val % 16, Nat.mod_lt _ (by decide)⟩

/-- The four index maps over the grid: the first window on x and the output follow the grid row, the second window
    on x and the window on W follow the grid column, and none moves along its second axis. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val % 16 ∧ win0_2.index t (1 : Fin 2) = 0
    ∧ win0_3.index t (0 : Fin 2) = t.val / 16 ∧ win0_3.index t (1 : Fin 2) = 0 :=
  (by decide +kernel : ∀ t : Fin grid0.N, _)

/-- The first window on x at point t, at (p, d), is x at row 256·(t / 16) + p and column d. -/
theorem iblk0_apply (c : Dev nD) (t : Fin cfg0.N) (p : Fin 256) (d : Fin 4096) :
    iblk m c 0 t (ix2 p d : SXb.Idx) = xArr m c (ix2 (row (bi t) p) d) := by
  obtain ⟨e0, e1, -⟩ := idx_facts t
  unfold iblk
  rw [View.read_apply]
  show V m c main_arg0 (((cfg0.win 0).blk t).view.emb (ix2 p d : SXb.Idx)) = V m c main_arg0 (ix2 (row (bi t) p) d)
  refine congrArg _ (funext fun a => Fin.ext ?_)
  match a with
  | ⟨0, _⟩ => show win0_0.index t (0 : Fin 2) * 256 + 1 * p.val = 256 * (t.val / 16) + p.val; rw [e0]; omega
  | ⟨1, _⟩ => show win0_0.index t (1 : Fin 2) * 4096 + 1 * d.val = d.val; rw [e1]; omega

/-- The second window on x at point t, at (p, d), is x at row 256·(t % 16) + p and column d. -/
theorem iblk1_apply (c : Dev nD) (t : Fin cfg0.N) (p : Fin 256) (d : Fin 4096) :
    iblk m c 1 t (ix2 p d : SXb.Idx) = xArr m c (ix2 (row (bj t) p) d) := by
  obtain ⟨-, -, e2, e3, -⟩ := idx_facts t
  unfold iblk
  rw [View.read_apply]
  show V m c main_arg0 (((cfg0.win 1).blk t).view.emb (ix2 p d : SXb.Idx)) = V m c main_arg0 (ix2 (row (bj t) p) d)
  refine congrArg _ (funext fun a => Fin.ext ?_)
  match a with
  | ⟨0, _⟩ => show win0_1.index t (0 : Fin 2) * 256 + 1 * p.val = 256 * (t.val % 16) + p.val; rw [e2]; omega
  | ⟨1, _⟩ => show win0_1.index t (1 : Fin 2) * 4096 + 1 * d.val = d.val; rw [e3]; omega

/-- The window on W at point t, at (p, o), is W at row 256·(t % 16) + p and column o. -/
theorem iblk2_apply (c : Dev nD) (t : Fin cfg0.N) (p : Fin 256) (o : Fin 1024) :
    iblk m c 2 t (ix2 p o : SWb.Idx) = wArr m c (ix2 (row (bj t) p) o) := by
  obtain ⟨-, -, -, -, e4, e5, -⟩ := idx_facts t
  unfold iblk
  rw [View.read_apply]
  show V m c main_arg1 (((cfg0.win 2).blk t).view.emb (ix2 p o : SWb.Idx)) = V m c main_arg1 (ix2 (row (bj t) p) o)
  refine congrArg _ (funext fun a => Fin.ext ?_)
  match a with
  | ⟨0, _⟩ => show win0_2.index t (0 : Fin 2) * 256 + 1 * p.val = 256 * (t.val % 16) + p.val; rw [e4]; omega
  | ⟨1, _⟩ => show win0_2.index t (1 : Fin 2) * 1024 + 1 * o.val = o.val; rw [e5]; omega

/-- The output block at point t sits at rows 256·(t / 16) … of the result: its (p, o) is the result's
    (256·(t / 16) + p, o). -/
theorem emb3_apply (t : Fin cfg0.N) (p : Fin 256) (o : Fin 1024) :
    ((cfg0.win 3).blk t).view.emb (ix2 p o : SWb.Idx) = (ix2 (row (bi t) p) o : SW.Idx) := by
  obtain ⟨-, -, -, -, -, -, e6, e7⟩ := idx_facts t
  refine funext fun a => Fin.ext ?_
  match a with
  | ⟨0, _⟩ => show win0_3.index t (0 : Fin 2) * 256 + 1 * p.val = 256 * (t.val / 16) + p.val; rw [e6]; omega
  | ⟨1, _⟩ => show win0_3.index t (1 : Fin 2) * 1024 + 1 * o.val = o.val; rw [e7]; omega

/-- Two row blocks of x that are its rows 256·a … and 256·b …: the kernel-matrix entry between row p of the one and
    row n of the other is the entry of x's kernel matrix at rows 256·a + p and 256·b + n (the three sums over the
    4096 columns are the same sums). -/
theorem rbfB_of_rows (x : SX.Idx → EReal) (xi xj : SXb.Idx → EReal) (a b : Fin 16)
    (hi : ∀ (p : Fin 256) (d : Fin 4096), xi (ix2 p d) = x (ix2 (row a p) d))
    (hj : ∀ (n : Fin 256) (d : Fin 4096), xj (ix2 n d) = x (ix2 (row b n) d)) (p n : Fin 256) :
    rbfB xi xj p n = rbf x (row a p) (row b n) := by
  unfold Cert.RbfSpec.rbfB Cert.RbfSpec.rbf Cert.RbfSpec.rowSq Cert.RbfSpec.gram
  simp only [hi, hj]

/-- At point t the two blocks of x give the kernel-matrix entries between the rows of grid row t / 16 and the rows of
    grid column t % 16. -/
theorem rbfB_blocks (c : Dev nD) (t : Fin cfg0.N) (p n : Fin 256) :
    rbfB (iblk m c 0 t) (iblk m c 1 t) p n = rbf (xArr m c) (row (bi t) p) (row (bj t) n) :=
  rbfB_of_rows (xArr m c) (iblk m c 0 t) (iblk m c 1 t) (bi t) (bj t) (iblk0_apply m c t) (iblk1_apply m c t) p n

/-- What point t adds at (p, o): the terms of the result at row 256·(t / 16) + p, column o, over the 256 rows of
    column block t % 16. -/
theorem contrib_eq (c : Dev nD) (t : Fin cfg0.N) (p : Fin 256) (o : Fin 1024) :
    (∑ n : Fin 256, rbfB (iblk m c 0 t) (iblk m c 1 t) p n * iblk m c 2 t (ix2 n o : SWb.Idx))
      = ∑ n : Fin 256, rbf (xArr m c) (row (bi t) p) (row (bj t) n) * wArr m c (ix2 (row (bj t) n) o) :=
  Finset.sum_congr rfl fun n _ => by rw [rbfB_blocks, iblk2_apply]

/-- The accumulator after point n, at (p, o), is the part of the result at row 256·(n / 16) + p and column o over the
    column blocks 0 … n % 16. At the first point of a grid row the body adds the point's terms to zero, and the sum
    over no block is zero; at a later point it adds them to what the point before left, which stands in the same grid
    row one column earlier. -/
theorem accP_eq (c : Dev nD) : ∀ (n : ℕ) (hn : n < cfg0.N) (p : Fin 256) (o : Fin 1024),
    accP m c n hn (ix2 p o : SWb.Idx)
      = Gpart (xArr m c) (wArr m c) (row (bi ⟨n, hn⟩) p) o ((bj ⟨n, hn⟩).val + 1) := by
  intro n
  induction n using Nat.strong_induction_on with
  | _ n ih =>
    intro hn p o
    rw [Cert.RbfSpec.Gpart_succ _ _ _ _ (bj ⟨n, hn⟩).val (bj ⟨n, hn⟩).isLt]
    show accP m c n hn (ix2 p o : SWb.Idx)
      = Gpart (xArr m c) (wArr m c) (row (bi ⟨n, hn⟩) p) o (n % 16)
        + ∑ k : Fin 256, rbf (xArr m c) (row (bi ⟨n, hn⟩) p) (row (bj ⟨n, hn⟩) k) * wArr m c (ix2 (row (bj ⟨n, hn⟩) k) o)
    by_cases h0 : n % 16 = 0
    · have hr := accP_reset m c ⟨n, hn⟩ h0
      have hr' : accP m c n hn = k0_pay2 (iblk m c 0 ⟨n, hn⟩) (iblk m c 1 ⟨n, hn⟩) (iblk m c 2 ⟨n, hn⟩) (k0_pay1 (F := Ideal)) := hr
      rw [hr', pay2_apply, pay1_apply, contrib_eq, h0, Cert.RbfSpec.Gpart_zero]
    · have hs := accP_step m c ⟨n, hn⟩ h0
      have hlt : n - 1 < n := by omega
      have hn' : n - 1 < cfg0.N := Nat.lt_of_le_of_lt (Nat.sub_le _ _) hn
      have hs' : accP m c n hn = k0_pay2 (iblk m c 0 ⟨n, hn⟩) (iblk m c 1 ⟨n, hn⟩) (iblk m c 2 ⟨n, hn⟩)
          (accP m c (n - 1) hn') := hs
      have e1 : bi ⟨n - 1, hn'⟩ = bi ⟨n, hn⟩ := Fin.ext (by show (n - 1) / 16 = n / 16; omega)
      have e2 : (bj ⟨n - 1, hn'⟩).val + 1 = n % 16 := by show (n - 1) % 16 + 1 = n % 16; omega
      rw [hs', pay2_apply, contrib_eq, ih (n - 1) hlt hn' p o, e1, e2]

/-- The result, as one function of the two argument arrays as core c finds them. -/
abbrev resultArr (c : Dev nD) : SW.Idx → EReal := Cert.RbfSpec.G (xArr m c) (wArr m c)

/-- What a point at grid column 15 writes back is its block of the result: there the accumulator holds the sum over
    all sixteen column blocks, which is the sum over the 4096 rows. -/
theorem flushed_eq (c : Dev nD) (t : Fin cfg0.N) (hf : (cfg0.win 3).flush t = true) :
    (dats (F := Ideal) m 0 c).flushed 3 t = ((cfg0.win 3).blk t).view.read (Elt Ideal) (resultArr m c) := by
  have h15 : t.val % 16 = 15 := (flush0_3 t).mp hf
  show (cfg0.win 3).cut (grid0.coords t) ((dats (F := Ideal) m 0 c).after 3 t) = _
  rw [after0_3]
  funext j
  obtain ⟨p, o, rfl⟩ : ∃ (p : Fin 256) (o : Fin 1024), j = (ix2 p o : SWb.Idx) := ⟨j 0, j 1, eq_ix2 j⟩
  rw [View.read_apply, emb3_apply]
  show accP m c t.val t.isLt (ix2 p o : SWb.Idx) = Gat (xArr m c) (wArr m c) (row (bi t) p) o
  rw [accP_eq m c t.val t.isLt p o, ← Cert.RbfSpec.Gpart_full]
  show Gpart (xArr m c) (wArr m c) (row (bi t) p) o (t.val % 16 + 1) = _
  rw [h15]

/-- An index of the result is in point t's output block iff each coordinate is in the block's range on its axis. -/
theorem mem_blk3 (t : Fin cfg0.N) (i : S4096x1024.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v0).slice (win0_3.rect t)).set ↔ _
  rw [View.set_slice_whole, Rect.mem_set_unit]
  exact Iff.rfl

/-- Every index of the result is in a block that is written back: row r lies in grid row r / 256, whose block the
    point at grid column 15 of that row writes. -/
theorem cover3 (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  have hN : cfg0.N = 256 := N_0
  let t : Fin cfg0.N := ⟨16 * ((i 0).val / 256) + 15, by omega⟩
  have htv : t.val = 16 * ((i 0).val / 256) + 15 := rfl
  obtain ⟨-, -, -, -, -, -, e6, e7⟩ := idx_facts t
  refine ⟨t, (flush0_3 t).mpr (by rw [htv]; omega), ?_⟩
  rw [mem_blk3]
  intro a
  match a with
  | ⟨0, _⟩ =>
    show win0_3.index t (0 : Fin 2) * 256 ≤ (i 0).val ∧ (i 0).val < win0_3.index t (0 : Fin 2) * 256 + 256
    rw [e6, htv]; omega
  | ⟨1, _⟩ =>
    show win0_3.index t (1 : Fin 2) * 1024 ≤ (i 1).val ∧ (i 1).val < win0_3.index t (1 : Fin 2) * 1024 + 1024
    rw [e7]; omega

/-- The result array after the run is the result function of the two argument arrays. -/
theorem final (c : Dev nD) : (dats (F := Ideal) m 0 c).arrAt 3 cfg0.N
    = Cert.RbfSpec.G (m ((c : Thread nD τ).loc main_arg0)) (m ((c : Thread nD τ).loc main_arg1)) :=
  (dats (F := Ideal) m 0 c).arrAt_eq_of_cover 3 (resultArr m c) (fun t hf => flushed_eq m c t hf) cover3

end Cert.KernelIdeal.Hand

end
-- ==== Proof.RefValue.lean ====
/-
  The reference program computes the specification.

  Stage by stage, read at an index: the row reduction of x·x is the squared norm of a row; the product of x with
  its transpose is the inner product of two rows; the exponential stage is the kernel-matrix entry
  exp(−½ · ((s r + s n) − 2 · g r n)); the last product with W is the sum over n of that entry times W[n, o].
  Nothing is regrouped: each stage is the specification's own expression, the indices agree coordinate by coordinate.
-/
import proofs.«148815_j86036784874092_1_alg».proof.Proof.Gen.ReferenceIdeal.Read
import proofs.«148815_j86036784874092_1_alg».proof.Proof.RbfSpec

noncomputable section

namespace Cert.ReferenceIdeal.RefValue

open Cert.ReferenceIdeal Cert.ReferenceIdeal.Gen Cert.ReferenceIdeal.Read Idealize.ShloMosaic Idealize.ShloMosaic.ValueIdx
open Cert.RbfSpec

/-- The row reduction of the squares, at row `r`, is the squared norm of row `r`. -/
theorem sq_at (x0 : (⟨S4096x4096, .f32⟩ : BufTy).Contents (Elt Ideal)) (j : S4096.Idx) :
    val_main_v1 (F := Ideal) x0 j = rowSq x0 (j 0) := by
  rw [val_main_v1_apply, val_main_cst_apply]
  simp only [val_main_v0_apply, Ideal.ofBits_def, Ideal.ofBits_zero_f32, zero_add, Ideal.mulf_def]
  unfold rowSq
  refine Finset.sum_congr rfl fun k _ => ?_
  have e : idx_main_v1 j k = ix2 (j 0) k :=
    funext fun a => Fin.ext (by match a with | ⟨0, _⟩ => rfl | ⟨1, _⟩ => rfl)
  rw [e]
  rfl

/-- The product of x with its transpose, at (r, n), is the inner product of rows `r` and `n`. -/
theorem gram_at (x0 : (⟨S4096x4096, .f32⟩ : BufTy).Contents (Elt Ideal)) (r n : Fin 4096) :
    val_main_v8 (F := Ideal) x0 (ix2 r n) = gram x0 r n := by
  rw [val_main_v8_apply]
  unfold gram
  refine Finset.sum_congr rfl fun k _ => ?_
  rw [val_main_v7_apply]
  have el : lidx_main_v8 (ix2 r n) k = ix2 r k :=
    funext fun a => Fin.ext (by match a with | ⟨0, _⟩ => rfl | ⟨1, _⟩ => rfl)
  have er : idx_main_v7 (ridx_main_v8 (ix2 r n) k) = ix2 n k :=
    funext fun a => Fin.ext (by match a with | ⟨0, _⟩ => rfl | ⟨1, _⟩ => rfl)
  rw [el, er]

/-- The exponential stage, at (r, n), is the kernel-matrix entry. -/
theorem rbf_at (x0 : (⟨S4096x4096, .f32⟩ : BufTy).Contents (Elt Ideal)) (r n : Fin 4096) :
    val_main_v14 (F := Ideal) x0 (ix2 r n) = rbf x0 r n := by
  rw [val_main_v14_apply, val_main_v13_apply, val_main_v12_apply, val_main_cst_1_apply, val_main_v11_apply,
    val_main_v6_apply, val_main_v4_apply, val_main_v2_apply, sq_at, val_main_v5_apply, val_main_v3_apply, sq_at,
    val_main_v10_apply, val_main_v9_apply, val_main_cst_0_apply, gram_at]
  simp only [Ideal.hostUnary_exp_def, Ideal.mulf_def, Ideal.subf_def, Ideal.addf_def, Ideal.ofBits_def]
  rfl

theorem ref_eq (x0 : (⟨Cert.ReferenceIdeal.S4096x4096, .f32⟩ : BufTy).Contents (Elt Ideal))
    (x1 : (⟨Cert.ReferenceIdeal.S4096x1024, .f32⟩ : BufTy).Contents (Elt Ideal)) :
    Cert.ReferenceIdeal.Read.val_main_v15 x0 x1 = Cert.RbfSpec.G x0 x1 := by
  funext i
  obtain ⟨r, o, rfl⟩ : ∃ (r : Fin 4096) (o : Fin 1024), i = ix2 r o := ⟨i 0, i 1, eq_ix2 i⟩
  rw [val_main_v15_apply]
  show _ = Gat x0 x1 r o
  unfold Gat
  refine Finset.sum_congr rfl fun k _ => ?_
  have el : lidx_main_v15 (ix2 r o) k = ix2 r k :=
    funext fun a => Fin.ext (by match a with | ⟨0, _⟩ => rfl | ⟨1, _⟩ => rfl)
  have er : ridx_main_v15 (ix2 r o) k = ix2 k o :=
    funext fun a => Fin.ext (by match a with | ⟨0, _⟩ => rfl | ⟨1, _⟩ => rfl)
  rw [el, er, rbf_at]

end Cert.ReferenceIdeal.RefValue

end
-- ==== Proof.lean ====
/-
  The certificate: a tiled radial-basis-function kernel product against its plain reference.

  For x : [4096, 4096] and W : [4096, 1024] both programs compute  out[r, o] = Σ_n k(r, n) · W[n, o]  with
  k(r, n) = exp(−½ · ((|x_r|² + |x_n|²) − 2 · ⟨x_r, x_n⟩)). The reference forms the whole 4096 × 4096 matrix k and
  multiplies once. The kernel walks a 16 × 16 grid of 256-row blocks: for row block i it accumulates, over the
  column blocks j = 0 … 15, the product of the [256, 256] tile of k with the j-th row block of W, starting from zero,
  and writes the accumulator to row block i of the result at j = 15. On the extended reals the float casts are
  identities and both sides are sums of the same terms; the tiled one only groups the sum over n into sixteen
  blocks, which a commutative monoid allows — no finiteness of the inputs is used.

  The three frames: the kernel's two (word level and idealized) are the run of its one region, the body run once per
  control case with the accumulator tracked from point to point; the array x is read through two windows, each
  holding half of its share. The reference's frame is its run with the result dropped. No operation was rewritten
  by the idealization, so that conjunct is trivial.
-/
import proofs.«148815_j86036784874092_1_alg».proof.Defs
import proofs.«148815_j86036784874092_1_alg».proof.Proof.Gen.Kernel
import proofs.«148815_j86036784874092_1_alg».proof.Proof.Gen.KernelIdeal
import proofs.«148815_j86036784874092_1_alg».proof.Proof.Gen.ReferenceIdeal
import proofs.«148815_j86036784874092_1_alg».proof.Proof.Gen.Pre_finite_inputs
import proofs.«148815_j86036784874092_1_alg».proof.Proof.KBRun
import proofs.«148815_j86036784874092_1_alg».proof.Proof.KIRun
import proofs.«148815_j86036784874092_1_alg».proof.Proof.KIValue
import proofs.«148815_j86036784874092_1_alg».proof.Proof.Gen.ReferenceIdeal.Run
import proofs.«148815_j86036784874092_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves x and W unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the one function `G` of the two arguments: the kernel's array is the
    accumulator's sixteen write-backs, each the full sum over n for its 256 rows; the reference's last stage is that
    sum read stage by stage. -/
theorem algebraic : Cert.algebraic_KernelIdeal_ReferenceIdeal := by
  intro m ρ m' ρ' _ hagree
  refine ⟨fun c => Cert.RbfSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Hand.final m c), (h c).2⟩) (Cert.KernelIdeal.Hand.run_blocks m ρ)
  · refine (θ_run Cert.ReferenceIdeal.defs _ _).mono (fun _ h c => ⟨?_, (h c).2⟩)
      (Cert.ReferenceIdeal.Value.run (F := Ideal) m' ρ')
    refine (h c).1.trans ((Cert.ReferenceIdeal.Read.val_main_v15_eq _ _).trans ((Cert.ReferenceIdeal.RefValue.ref_eq _ _).trans ?_))
    rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
